-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16384x256 : Shape := ⟨2, ![16384, 256]⟩
abbrev S16384x4096 : Shape := ⟨2, ![16384, 4096]⟩
abbrev S256x64 : Shape := ⟨2, ![256, 64]⟩
abbrev S64 : Shape := ⟨1, ![64]⟩
abbrev S320x256 : Shape := ⟨2, ![320, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S64 .f32) (main_arg5 : FVec F S320x256 .f32) (main_arg6 : FVec F S256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S320x256 .f32 := Host.absf main_arg5
  let main_cst_8 : FVec F S_ .f32 := constant S_ .f32 0x7F800000#32
  let main_v25 : FVec F S320x256 .f32 := broadcastInDim S320x256 ![] bcast_S_S320x256 main_cst_8
  let main_v26 : IVec S320x256 1 := cmpf .olt main_v24 main_v25
  let main_c_9 : IVec S_ 1 := constantI S_ 1 1#1
  let main_v27 : IVec S_ 1 := (fun x v => Host.reduce IntOp.andi x v reducesTo_S320x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4096x256 .f32) (main_arg1 : FVec F S16384x256 .f32) (main_arg2 : FVec F S16384x4096 .f32) (main_arg3 : FVec F S256x64 .f32) (main_arg4 : FVec F S64 .f32) (main_arg5 : FVec F S320x256 .f32) (main_arg6 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S4096x256 : Shape := ⟨2, ![4096, 256]⟩
abbrev S16384x256 : Shape := ⟨2, ![16384, 256]⟩
abbrev S16384x4096 : Shape := ⟨2, ![16384, 4096]⟩
abbrev S256x64 : Shape := ⟨2, ![256, 64]⟩
abbrev S64 : Shape := ⟨1, ![64]⟩
abbrev S320x256 : Shape := ⟨2, ![320, 256]⟩
abbrev S256 : Shape := ⟨1, ![256]⟩
abbrev S64x256 : Shape := ⟨2, ![64, 256]⟩
abbrev S256x256 : Shape := ⟨2, ![256, 256]⟩
abbrev S1x64 : Shape := ⟨2, ![1, 64]⟩
abbrev S1x256 : Shape := ⟨2, ![1, 256]⟩
abbrev S4096x64 : Shape := ⟨2, ![4096, 64]⟩
abbrev S512x4096 : Shape := ⟨2, ![512, 4096]⟩
abbrev S512x256 : Shape := ⟨2, ![512, 256]⟩
abbrev S512x64 : Shape := ⟨2, ![512, 64]⟩

abbrev nBuf : Space → Nat
  | .hbm => 13
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S16384x4096, .f32⟩
  | .hbm, ⟨3, _⟩ => ⟨S256x64, .f32⟩
  | .hbm, ⟨4, _⟩ => ⟨S64, .f32⟩
  | .hbm, ⟨5, _⟩ => ⟨S320x256, .f32⟩
  | .hbm, ⟨6, _⟩ => ⟨S256, .f32⟩
  | .hbm, ⟨7, _⟩ => ⟨S64x256, .f32⟩
  | .hbm, ⟨8, _⟩ => ⟨S256x256, .f32⟩
  | .hbm, ⟨9, _⟩ => ⟨S1x64, .f32⟩
  | .hbm, ⟨10, _⟩ => ⟨S1x256, .f32⟩
  | .hbm, ⟨11, _⟩ => ⟨S4096x64, .f32⟩
  | .hbm, ⟨12, _⟩ => ⟨S16384x256, .f32⟩
  | .local _ .vmem, ⟨0, _⟩ => ⟨S4096x256, .f32⟩
  | .local _ .vmem, ⟨1, _⟩ => ⟨S256x64, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S512x4096, .f32⟩
  | .local _ .vmem, ⟨6, _⟩ => ⟨S512x4096, .f32⟩
  | .local _ .vmem, ⟨7, _⟩ => ⟨S512x256, .f32⟩
  | .local _ .vmem, ⟨8, _⟩ => ⟨S512x256, .f32⟩
  | .local _ .vmem, ⟨9, _⟩ => ⟨S64x256, .f32⟩
  | .local _ .vmem, ⟨10, _⟩ => ⟨S256x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := .none

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S320x256_S64x256_0_0 : S320x256.Slices ![0, 0] S64x256
  slices_S320x256_S256x256_64_0 : S320x256.Slices ![64, 0] S256x256
  shapeCasts_S64_S1x64 : S64.ShapeCasts S1x64
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  inb_S512x4096_S512x4096_0_0 : ∀ a, (![0, 0] : Fin 2 → Nat) a + S512x4096.size a ≤ S512x4096.size a
  h_S512x4096 : 0 < S512x4096.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S4096x256_S256x64_S4096x64_1_0_0_1_n_n_wf : DotDims.WF S4096x256 S256x64 S4096x64 [1] [0] [0] [1] [] []
  dot_S512x4096_S4096x64_S512x64_1_0_0_1_n_n_wf : DotDims.WF S512x4096 S4096x64 S512x64 [1] [0] [0] [1] [] []
  dot_S512x64_S64x256_S512x256_1_0_0_1_n_n_wf : DotDims.WF S512x64 S64x256 S512x256 [1] [0] [0] [1] [] []
  dot_S512x256_S256x256_S512x256_1_0_0_1_n_n_wf : DotDims.WF S512x256 S256x256 S512x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S4096x64.size a
  hwx1_0 : ∀ i : grid1.Coords, EltTy.bits .f32 = 32 ∨ (Rect.block (s := S4096x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .f32 = 32 ∨ (Rect.block (s := S16384x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S16384x256.size a
  hwx1_2 : ∀ i : grid1.Coords, EltTy.bits .f32 = 32 ∨ (Rect.block (s := S16384x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S16384x256.size a
  hwx1_6 : ∀ i : grid1.Coords, EltTy.bits .f32 = 32 ∨ (Rect.block (s := S16384x256) S512x256.size (cc1_transform_6 i) (hinb1_6 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_v4) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S4096x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x256 : Shape := ⟨2, ![4096, 256]⟩
abbrev S16384x256 : Shape := ⟨2, ![16384, 256]⟩
abbrev S16384x4096 : Shape := ⟨2, ![16384, 4096]⟩
abbrev S256x64 : Shape := ⟨2, ![256, 64]⟩
abbrev S64 : Shape := ⟨1, ![64]⟩
abbrev S320x256 : Shape := ⟨2, ![320, 256]⟩
abbrev S256 : Shape := ⟨1, ![256]⟩
abbrev S4096x64 : Shape := ⟨2, ![4096, 64]⟩
abbrev S1x64 : Shape := ⟨2, ![1, 64]⟩
abbrev S16384x64 : Shape := ⟨2, ![16384, 64]⟩
abbrev S16384x320 : Shape := ⟨2, ![16384, 320]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S16384x4096, .f32⟩
  | .hbm, ⟨3, _⟩ => ⟨S256x64, .f32⟩
  | .hbm, ⟨4, _⟩ => ⟨S64, .f32⟩
  | .hbm, ⟨5, _⟩ => ⟨S320x256, .f32⟩
  | .hbm, ⟨6, _⟩ => ⟨S256, .f32⟩
  | .hbm, ⟨7, _⟩ => ⟨S4096x64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S16384x64, .f32⟩
  | .hbm, ⟨12, _⟩ => ⟨S16384x320, .f32⟩
  | .hbm, ⟨13, _⟩ => ⟨S16384x256, .f32⟩
  | .hbm, ⟨14, _⟩ => ⟨S1x256, .f32⟩
  | .hbm, ⟨15, _⟩ => ⟨S16384x256, .f32⟩
  | .hbm, ⟨16, _⟩ => ⟨S16384x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S16384x64_S16384x256_S16384x320_d1 : Shape.Concatenates [S16384x64, S16384x256] S16384x320 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S4096x256_S256x64_S4096x64_1_0_0_1_n_n_wf : DotDims.WF S4096x256 S256x64 S4096x64 [1] [0] [0] [1] [] []
  dot_S16384x4096_S4096x64_S16384x64_1_0_0_1_n_n_wf : DotDims.WF S16384x4096 S4096x64 S16384x64 [1] [0] [0] [1] [] []
  dot_S16384x320_S320x256_S16384x256_1_0_0_1_n_n_wf : DotDims.WF S16384x320 S320x256 S16384x256 [1] [0] [0] [1] [] []

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def dot_S16384x320_S320x256_S16384x256_1_0_0_1_n_n : DotDims S16384x320 S320x256 S16384x256 where
  lhsContracting := [1]
  rhsContracting := [0]
  lhsNonContracting := [0]
  rhsNonContracting := [1]
  lhsBatch := []
  rhsBatch := []
  wf := dot_S16384x320_S320x256_S16384x256_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Payload.lean ====
/-
  What each of the two kernel bodies stores, read at one entry, on the extended reals.

  The first body stores x_coarse · W_sym + b_sym: at (j, k) the sum over i of x[j,i] * w[i,k], plus the bias row's
  entry k. The second body stores, for its tile of 512 fine rows, (S_tile · x_scalar) · W1 + x_fine_tile · W2 + b: at
  (r, q) the sum over k < 64 of (sum over j of S[r,j] * xs[j,k]) * W1[k,q], plus the sum over k < 256 of
  xf[r,k] * W2[k,q], plus the bias row's entry q. Each matrix product is taken into a zero accumulator, so it is the plain
  sum; the shape casts are between equal shapes and do nothing.
-/
import proofs.«180352_g84232898609311_cont_9to1c4b_835_14_alg».proof.Proof.Gen.KernelIdeal.Skeleton
import proofs.«180352_g84232898609311_cont_9to1c4b_835_14_alg».proof.Proof.LibPlainDot
import proofs.«180352_g84232898609311_cont_9to1c4b_835_14_alg».proof.Proof.LibRowBias
import Idealize.ShloMosaic.Lib.Pipeline.Value
import Idealize.ShloMosaic.Lib.ValueIdx

noncomputable section

open scoped BigOperators

namespace Cert.Unpool.Kernel

open Idealize.ShloMosaic Idealize.ShloMosaic.ValueIdx Cert.KernelIdeal Cert.KernelIdeal.Gen

/-- The first body's stored value at (j, k). -/
theorem scalar_payload (v0 : Vec Ideal S4096x256 .f32) (v1 : Vec Ideal S256x64 .f32) (v3 : Vec Ideal S1x64 .f32)
    (j : Fin 4096) (k : Fin 64) :
    k0_pay1 (F := Ideal) v0 v1 v3 (ix2 j k)
      = (∑ i : Fin 256, v0 (ix2 j i) * v1 (ix2 i k)) + v3 (ix2 (0 : Fin 1) k) := by
  unfold k0_pay1
  refine congrArg₂ (· + ·) ?_ ?_
  · exact Cert.PlainDot.matmul_zero_apply none v0 v1 j k
  · rw [shapeCast_self]
    exact Cert.RowBias.rows_apply v3 broadcasts_S1x64_S4096x64 j k

/-- The second body's stored value at (r, q). -/
theorem fused_payload (v0 : Vec Ideal S512x4096 .f32) (v1 : Vec Ideal S4096x64 .f32) (v4 : Vec Ideal S64x256 .f32)
    (v7 : Vec Ideal S512x256 .f32) (v8 : Vec Ideal S256x256 .f32) (v12 : Vec Ideal S1x256 .f32)
    (r : Fin 512) (q : Fin 256) :
    k1_pay1 (F := Ideal) v0 v1 v4 v7 v8 v12 (ix2 r q)
      = ((∑ k : Fin 64, (∑ j : Fin 4096, v0 (ix2 r j) * v1 (ix2 j k)) * v4 (ix2 k q))
          + ∑ k : Fin 256, v7 (ix2 r k) * v8 (ix2 k q)) + v12 (ix2 (0 : Fin 1) q) := by
  unfold k1_pay1
  rw [shapeCast_self, shapeCast_self, shapeCast_self, shapeCast_self]
  refine congrArg₂ (· + ·) (congrArg₂ (· + ·) ?_ ?_) ?_
  · refine (Cert.PlainDot.matmul_zero_apply none _ v4 r q).trans ?_
    refine Finset.sum_congr rfl fun k _ => congrArg (· * v4 (ix2 k q)) ?_
    exact Cert.PlainDot.matmul_zero_apply none v0 v1 r k
  · exact Cert.PlainDot.matmul_zero_apply none v7 v8 r q
  · exact Cert.RowBias.rows_apply v12 broadcasts_S1x256_S512x256 r q

end Cert.Unpool.Kernel

end
-- ==== Proof.Spec.lean ====
/-
  The fused unpooling layer as ONE function of its seven argument arrays, on the extended reals.

  With x_scalar[j,k] = (sum over i of x_coarse[j,i] * W_sym[i,k]) + b_sym[k], the layer's result at row p, column q is

    (sum over k < 64 of (sum over j of S[p,j] * x_scalar[j,k]) * W_fuse[k,q])
      + (sum over k < 256 of x_fine[p,k] * W_fuse[64+k,q]) + b_fuse[q].

  The first 64 rows of W_fuse meet the interpolated scalar channels and the last 256 rows meet the fine features: a
  product with the two blocks laid side by side is the sum of the two products, because a sum over 320 terms is the
  sum over the first 64 plus the sum over the other 256 (`sum_split`; addition on the extended reals is commutative
  and associative, so no finiteness is used).
-/
import Idealize.ShloMosaic.PureOps.Ideal
import Idealize.ShloMosaic.Lib.ValueIdx

noncomputable section

open scoped BigOperators

namespace Cert.Unpool

open Idealize.ShloMosaic Idealize.ShloMosaic.ValueIdx

/-- A matrix of extended reals with `a` rows and `b` columns. -/
abbrev Mat (a b : Nat) := FVec Ideal ⟨2, ![a, b]⟩ .f32
/-- A vector of extended reals of length `a`. -/
abbrev Vc (a : Nat) := FVec Ideal ⟨1, ![a]⟩ .f32

/-- Row `k` of the first 64 rows of a 320-row matrix. -/
abbrev top (k : Fin 64) : Fin 320 := ⟨k.val, by omega⟩
/-- Row `64 + k` of a 320-row matrix: row `k` of its last 256 rows. -/
abbrev bot (k : Fin 256) : Fin 320 := ⟨64 + k.val, by omega⟩

/-- A sum over 320 terms is the sum over the first 64 plus the sum over the last 256. -/
theorem sum_split {β : Type} [AddCommMonoid β] (f : Fin 320 → β) :
    ∑ k : Fin 320, f k = (∑ k : Fin 64, f (top k)) + ∑ k : Fin 256, f (bot k) :=
  Fin.sum_univ_add (a := 64) (b := 256) f

/-- The scalar channels of the coarse mesh: x_coarse · W_sym + b_sym at row `j`, channel `k`. -/
def scalar (xc : Mat 4096 256) (ws : Mat 256 64) (bs : Vc 64) (j : Fin 4096) (k : Fin 64) : EReal :=
  (∑ i : Fin 256, xc (ix2 j i) * ws (ix2 i k)) + bs (ix1 k)

/-- The scalar channels carried to the fine mesh: (S · x_scalar) at fine row `p`, channel `k`. -/
def lifted (s : Mat 16384 4096) (xc : Mat 4096 256) (ws : Mat 256 64) (bs : Vc 64) (p : Fin 16384) (k : Fin 64) : EReal :=
  ∑ j : Fin 4096, s (ix2 p j) * scalar xc ws bs j k

/-- The layer's result at fine row `p`, output column `q`. -/
def out (xc : Mat 4096 256) (xf : Mat 16384 256) (s : Mat 16384 4096) (ws : Mat 256 64) (bs : Vc 64)
    (wf : Mat 320 256) (bf : Vc 256) (p : Fin 16384) (q : Fin 256) : EReal :=
  ((∑ k : Fin 64, lifted s xc ws bs p k * wf (ix2 (top k) q))
    + ∑ k : Fin 256, xf (ix2 p k) * wf (ix2 (bot k) q)) + bf (ix1 q)

/-- The layer's result array. -/
def G (xc : Mat 4096 256) (xf : Mat 16384 256) (s : Mat 16384 4096) (ws : Mat 256 64) (bs : Vc 64)
    (wf : Mat 320 256) (bf : Vc 256) : Mat 16384 256 :=
  fun i => out xc xf s ws bs wf bf (i 0) (i 1)

theorem G_apply (xc : Mat 4096 256) (xf : Mat 16384 256) (s : Mat 16384 4096) (ws : Mat 256 64) (bs : Vc 64)
    (wf : Mat 320 256) (bf : Vc 256) (p : Fin 16384) (q : Fin 256) :
    G xc xf s ws bs wf bf (ix2 p q) = out xc xf s ws bs wf bf p q := rfl

end Cert.Unpool

end
-- ==== Proof.ScalarRegion.lean ====
/-
  What the first call leaves in its result array: the scalar channels of the coarse mesh.

  The call has a single point and each of its windows is a whole array, so the one write-back is the body's stored
  value, x · w + (bias row), of the three arrays the call reads, and it covers the result array.
-/
import proofs.«180352_g84232898609311_cont_9to1c4b_835_14_alg».proof.Proof.Gen.KernelIdeal.Frame
import proofs.«180352_g84232898609311_cont_9to1c4b_835_14_alg».proof.Proof.Payload
import proofs.«180352_g84232898609311_cont_9to1c4b_835_14_alg».proof.Proof.Spec
import Idealize.ShloMosaic.Lib.Pipeline.Value

set_option maxRecDepth 16384

noncomputable section

open scoped BigOperators

namespace Cert.Unpool.Kernel

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The scalar channels from the three arrays the first call reads. -/
def scalarOf (xc : Mat 4096 256) (ws : Mat 256 64) (brow : Mat 1 64) : Mat 4096 64 :=
  fun i => (∑ i' : Fin 256, xc (ix2 (i 0) i') * ws (ix2 i' (i 1))) + brow (ix2 (0 : Fin 1) (i 1))

/-- The first call has one point and every window's block is the whole array, at block index 0. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem flushed_scalar (c : Dev nD) (t : Fin cfg0.N) :
    (dat0 V c).flushed 3 t = ((cfg0.win 3).blk t).view.read (Elt Ideal) (scalarOf (V c main_arg0) (V c main_arg3) (V c main_v2)) := by
  show (cfg0.win 3).cut (grid0.coords t) ((dat0 V c).after 3 t) = _
  rw [after0_3]
  unfold out0_3
  rw [View.canon_unit_zero hz]
  simp only [View.ld_unit_zero (S := S4096x256) hz, View.ld_unit_zero (S := S256x64) hz, View.ld_unit_zero (S := S1x64) hz]
  funext y
  obtain ⟨r, q, rfl⟩ : ∃ (r : Fin 4096) (q : Fin 64), y = ix2 r q := ⟨y 0, y 1, eq_ix2 y⟩
  show k0_pay1 (F := Ideal) (iblk0 V c 0 t) (iblk0 V c 1 t) (iblk0 V c 2 t) (ix2 r q)
    = scalarOf (V c main_arg0) (V c main_arg3) (V c main_v2) (((cfg0.win 3).blk t).view.emb (ix2 r q))
  refine (scalar_payload _ _ _ r q).trans ?_
  obtain ⟨a00, a01, a10, a11, a20, a21, a30, a31⟩ := idx0 t
  have e0 : ∀ i : Fin 256, iblk0 V c 0 t (ix2 r i) = V c main_arg0 (ix2 r i) := fun i => by
    show V c main_arg0 (((cfg0.win 0).blk t).view.emb (ix2 r i)) = V c main_arg0 (ix2 r i)
    refine congrArg (V c main_arg0) ?_
    funext a; apply Fin.ext
    match a with
    | ⟨0, _⟩ => show win0_0.index t (0 : Fin 2) * 4096 + 1 * r.val = r.val; omega
    | ⟨1, _⟩ => show win0_0.index t (1 : Fin 2) * 256 + 1 * i.val = i.val; omega
  have e1 : ∀ i : Fin 256, iblk0 V c 1 t (ix2 i q) = V c main_arg3 (ix2 i q) := fun i => by
    show V c main_arg3 (((cfg0.win 1).blk t).view.emb (ix2 i q)) = V c main_arg3 (ix2 i q)
    refine congrArg (V c main_arg3) ?_
    funext a; apply Fin.ext
    match a with
    | ⟨0, _⟩ => show win0_1.index t (0 : Fin 2) * 256 + 1 * i.val = i.val; omega
    | ⟨1, _⟩ => show win0_1.index t (1 : Fin 2) * 64 + 1 * q.val = q.val; omega
  have e2 : iblk0 V c 2 t (ix2 (0 : Fin 1) q) = V c main_v2 (ix2 (0 : Fin 1) q) := by
    show V c main_v2 (((cfg0.win 2).blk t).view.emb (ix2 (0 : Fin 1) q)) = V c main_v2 (ix2 (0 : Fin 1) q)
    refine congrArg (V c main_v2) ?_
    funext a; apply Fin.ext
    match a with
    | ⟨0, _⟩ => show win0_2.index t (0 : Fin 2) * 1 + 1 * 0 = 0; omega
    | ⟨1, _⟩ => show win0_2.index t (1 : Fin 2) * 64 + 1 * q.val = q.val; omega
  have e3 : ((cfg0.win 3).blk t).view.emb (ix2 r q) = ix2 r q := by
    funext a; apply Fin.ext
    match a with
    | ⟨0, _⟩ => show win0_3.index t (0 : Fin 2) * 4096 + 1 * r.val = r.val; omega
    | ⟨1, _⟩ => show win0_3.index t (1 : Fin 2) * 64 + 1 * q.val = q.val; omega
  rw [e3, e2]
  simp only [e0, e1]
  rfl

/-- An index of the result array is in the point's block iff each coordinate is in the block's range on its axis. -/
theorem mem_blk_scalar (t : Fin cfg0.N) (i : S4096x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v4).slice (win0_3.rect t)).set ↔ _
  rw [View.set_slice_whole, Rect.mem_set_unit]
  exact Iff.rfl

/-- The one block is the whole result array. -/
theorem cover_scalar (i : S4096x64.Idx) :
    ∃ t : Fin cfg0.N, (cfg0.win 3).flush t = true ∧ i ∈ ((cfg0.win 3).blk t).view.set := by
  refine ⟨t0_0, flush0_3 t0_0, ?_⟩
  rw [mem_blk_scalar]
  obtain ⟨-, -, -, -, -, -, a30, a31⟩ := idx0 t0_0
  have hi0 : (i 0).val < 4096 := (i 0).isLt
  have hi1 : (i 1).val < 64 := (i 1).isLt
  intro a
  match a with
  | ⟨0, _⟩ => show win0_3.index t0_0 (0 : Fin 2) * 4096 ≤ (i 0).val ∧ (i 0).val < win0_3.index t0_0 (0 : Fin 2) * 4096 + 4096; omega
  | ⟨1, _⟩ => show win0_3.index t0_0 (1 : Fin 2) * 64 ≤ (i 1).val ∧ (i 1).val < win0_3.index t0_0 (1 : Fin 2) * 64 + 64; omega

/-- The result array after the first call: the scalar channels of the arrays the call reads. -/
theorem scalar_final (c : Dev nD) :
    (dat0 V c).arrAt 3 cfg0.N = scalarOf (V c main_arg0) (V c main_arg3) (V c main_v2) :=
  (dat0 V c).arrAt_eq_of_cover 3 _ (fun t _ => flushed_scalar V c t) cover_scalar

end Cert.Unpool.Kernel

end
-- ==== Proof.FusedRegion.lean ====
/-
  What the second call leaves in its result array.

  The call walks the 16384 fine rows in 32 tiles of 512. At tile t it reads rows 512·t … 512·t + 511 of the
  interpolation matrix and of the fine features, the whole scalar-channel array, both weight blocks and the bias row, and
  writes rows 512·t … 512·t + 511 of the result: at row p, column q the sum over k < 64 of
  (sum over j of S[p,j] · xs[j,k]) · W1[k,q], plus the sum over k < 256 of xf[p,k] · W2[k,q], plus the bias row's entry q.
  The 32 tiles cover the result array, so the array ends holding that function of the arrays the call reads.
-/
import proofs.«180352_g84232898609311_cont_9to1c4b_835_14_alg».proof.Proof.Gen.KernelIdeal.Frame
import proofs.«180352_g84232898609311_cont_9to1c4b_835_14_alg».proof.Proof.Payload
import proofs.«180352_g84232898609311_cont_9to1c4b_835_14_alg».proof.Proof.Spec
import Idealize.ShloMosaic.Lib.Pipeline.Value

set_option maxRecDepth 16384

noncomputable section

open scoped BigOperators

namespace Cert.Unpool.Kernel

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The fused projection from the six arrays the second call reads. -/
def fusedOf (xs : Mat 4096 64) (s : Mat 16384 4096) (xf : Mat 16384 256) (w1 : Mat 64 256) (w2 : Mat 256 256)
    (brow : Mat 1 256) : Mat 16384 256 :=
  fun i => ((∑ k : Fin 64, (∑ j : Fin 4096, s (ix2 (i 0) j) * xs (ix2 j k)) * w1 (ix2 k (i 1)))
    + ∑ k : Fin 256, xf (ix2 (i 0) k) * w2 (ix2 k (i 1))) + brow (ix2 (0 : Fin 1) (i 1))

/-- The printed index maps over the 32 points: the interpolation matrix's, the fine features' and the result's row
    tile move together, every other block index is 0, and the tile number stays below 32. -/
theorem idx1 : ∀ t : Fin cfg1.N, win1_0.index t (0 : Fin 2) = 0 ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 31 ∧ win1_6.index t (1 : Fin 2) = 0 :=
  (by decide +kernel : ∀ t : Fin grid1.N, _)

/-- Every row tile is some point's. -/
theorem idx1_onto : ∀ q0 : Fin 32, ∃ t : Fin cfg1.N, win1_6.index t = ![q0.val, 0] :=
  (by decide +kernel : ∀ q0 : Fin 32, ∃ t : Fin grid1.N, win1_6.index t = ![q0.val, 0])

/-- What point `t` writes back is its row tile of the fused projection of the arrays the call reads. -/
theorem flushed_fused (c : Dev nD) (t : Fin cfg1.N) :
    (dat1 V c).flushed 6 t = ((cfg1.win 6).blk t).view.read (Elt Ideal)
      (fusedOf (V c main_v4) (V c main_arg2) (V c main_arg1) (V c main_v0) (V c main_v1) (V c main_v3)) := by
  show (cfg1.win 6).cut (grid1.coords t) ((dat1 V c).after 6 t) = _
  rw [after1_6]
  unfold out1_6
  rw [View.canon_unit_zero hz1]
  simp only [View.ld_unit_zero (S := S512x4096) hz1, View.ld_unit_zero (S := S4096x64) hz1, View.ld_unit_zero (S := S64x256) hz1,
    View.ld_unit_zero (S := S512x256) hz1, View.ld_unit_zero (S := S256x256) hz1, View.ld_unit_zero (S := S1x256) hz1]
  funext y
  obtain ⟨r, q, rfl⟩ : ∃ (r : Fin 512) (q : Fin 256), y = ix2 r q := ⟨y 0, y 1, eq_ix2 y⟩
  show k1_pay1 (F := Ideal) (iblk1 V c 1 t) (iblk1 V c 0 t) (iblk1 V c 3 t) (iblk1 V c 2 t) (iblk1 V c 4 t) (iblk1 V c 5 t) (ix2 r q)
    = fusedOf (V c main_v4) (V c main_arg2) (V c main_arg1) (V c main_v0) (V c main_v1) (V c main_v3) (((cfg1.win 6).blk t).view.emb (ix2 r q))
  refine (fused_payload _ _ _ _ _ _ r q).trans ?_
  obtain ⟨a00, a01, a10, a11, a20, a21, a30, a31, a40, a41, a50, a51, a60, a61⟩ := idx1 t
  have hr : r.val < 512 := r.isLt
  have hp : win1_6.index t (0 : Fin 2) * 512 + r.val < 16384 := by omega
  have e0 : ∀ (j : Fin 4096) (k : Fin 64), iblk1 V c 0 t (ix2 j k) = V c main_v4 (ix2 j k) := fun j k => by
    show V c main_v4 (((cfg1.win 0).blk t).view.emb (ix2 j k)) = V c main_v4 (ix2 j k)
    refine congrArg (V c main_v4) ?_
    funext a; apply Fin.ext
    match a with
    | ⟨0, _⟩ => show win1_0.index t (0 : Fin 2) * 4096 + 1 * j.val = j.val; omega
    | ⟨1, _⟩ => show win1_0.index t (1 : Fin 2) * 64 + 1 * k.val = k.val; omega
  have e1 : ∀ j : Fin 4096, iblk1 V c 1 t (ix2 r j) = V c main_arg2 (ix2 (⟨win1_6.index t (0 : Fin 2) * 512 + r.val, hp⟩ : Fin 16384) j) := fun j => by
    show V c main_arg2 (((cfg1.win 1).blk t).view.emb (ix2 r j)) = V c main_arg2 (ix2 (⟨win1_6.index t (0 : Fin 2) * 512 + r.val, hp⟩ : Fin 16384) j)
    refine congrArg (V c main_arg2) ?_
    funext a; apply Fin.ext
    match a with
    | ⟨0, _⟩ => show win1_1.index t (0 : Fin 2) * 512 + 1 * r.val = win1_6.index t (0 : Fin 2) * 512 + r.val; omega
    | ⟨1, _⟩ => show win1_1.index t (1 : Fin 2) * 4096 + 1 * j.val = j.val; omega
  have e2 : ∀ k : Fin 256, iblk1 V c 2 t (ix2 r k) = V c main_arg1 (ix2 (⟨win1_6.index t (0 : Fin 2) * 512 + r.val, hp⟩ : Fin 16384) k) := fun k => by
    show V c main_arg1 (((cfg1.win 2).blk t).view.emb (ix2 r k)) = V c main_arg1 (ix2 (⟨win1_6.index t (0 : Fin 2) * 512 + r.val, hp⟩ : Fin 16384) k)
    refine congrArg (V c main_arg1) ?_
    funext a; apply Fin.ext
    match a with
    | ⟨0, _⟩ => show win1_2.index t (0 : Fin 2) * 512 + 1 * r.val = win1_6.index t (0 : Fin 2) * 512 + r.val; omega
    | ⟨1, _⟩ => show win1_2.index t (1 : Fin 2) * 256 + 1 * k.val = k.val; omega
  have e3 : ∀ k : Fin 64, iblk1 V c 3 t (ix2 k q) = V c main_v0 (ix2 k q) := fun k => by
    show V c main_v0 (((cfg1.win 3).blk t).view.emb (ix2 k q)) = V c main_v0 (ix2 k q)
    refine congrArg (V c main_v0) ?_
    funext a; apply Fin.ext
    match a with
    | ⟨0, _⟩ => show win1_3.index t (0 : Fin 2) * 64 + 1 * k.val = k.val; omega
    | ⟨1, _⟩ => show win1_3.index t (1 : Fin 2) * 256 + 1 * q.val = q.val; omega
  have e4 : ∀ k : Fin 256, iblk1 V c 4 t (ix2 k q) = V c main_v1 (ix2 k q) := fun k => by
    show V c main_v1 (((cfg1.win 4).blk t).view.emb (ix2 k q)) = V c main_v1 (ix2 k q)
    refine congrArg (V c main_v1) ?_
    funext a; apply Fin.ext
    match a with
    | ⟨0, _⟩ => show win1_4.index t (0 : Fin 2) * 256 + 1 * k.val = k.val; omega
    | ⟨1, _⟩ => show win1_4.index t (1 : Fin 2) * 256 + 1 * q.val = q.val; omega
  have e5 : iblk1 V c 5 t (ix2 (0 : Fin 1) q) = V c main_v3 (ix2 (0 : Fin 1) q) := by
    show V c main_v3 (((cfg1.win 5).blk t).view.emb (ix2 (0 : Fin 1) q)) = V c main_v3 (ix2 (0 : Fin 1) q)
    refine congrArg (V c main_v3) ?_
    funext a; apply Fin.ext
    match a with
    | ⟨0, _⟩ => show win1_5.index t (0 : Fin 2) * 1 + 1 * 0 = 0; omega
    | ⟨1, _⟩ => show win1_5.index t (1 : Fin 2) * 256 + 1 * q.val = q.val; omega
  have e6 : ((cfg1.win 6).blk t).view.emb (ix2 r q) = ix2 (⟨win1_6.index t (0 : Fin 2) * 512 + r.val, hp⟩ : Fin 16384) q := by
    funext a; apply Fin.ext
    match a with
    | ⟨0, _⟩ => show win1_6.index t (0 : Fin 2) * 512 + 1 * r.val = win1_6.index t (0 : Fin 2) * 512 + r.val; omega
    | ⟨1, _⟩ => show win1_6.index t (1 : Fin 2) * 256 + 1 * q.val = q.val; omega
  rw [e6, e5]
  simp only [e0, e1, e2, e3, e4]
  rfl

/-- An index of the result array is in point `t`'s block iff each coordinate is in the block's range on its axis. -/
theorem mem_blk_fused (t : Fin cfg1.N) (i : S16384x256.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v5).slice (win1_6.rect t)).set ↔ _
  rw [View.set_slice_whole, Rect.mem_set_unit]
  exact Iff.rfl

/-- Row p lies in tile p / 512: the 32 tiles cover the result array. -/
theorem cover_fused (i : S16384x256.Idx) :
    ∃ t : Fin cfg1.N, (cfg1.win 6).flush t = true ∧ i ∈ ((cfg1.win 6).blk t).view.set := by
  have hi0 : (i 0).val < 16384 := (i 0).isLt
  have hi1 : (i 1).val < 256 := (i 1).isLt
  obtain ⟨t, ht⟩ := idx1_onto ⟨(i 0).val / 512, by omega⟩
  have q0 : win1_6.index t (0 : Fin 2) = (i 0).val / 512 := congrFun ht 0
  have q1 : win1_6.index t (1 : Fin 2) = 0 := congrFun ht 1
  refine ⟨t, flush1_6 t, ?_⟩
  rw [mem_blk_fused]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 256 ≤ (i 1).val ∧ (i 1).val < win1_6.index t (1 : Fin 2) * 256 + 256; omega

/-- The result array after the second call: the fused projection of the arrays the call reads. -/
theorem fused_final (c : Dev nD) :
    (dat1 V c).arrAt 6 cfg1.N
      = fusedOf (V c main_v4) (V c main_arg2) (V c main_arg1) (V c main_v0) (V c main_v1) (V c main_v3) :=
  (dat1 V c).arrAt_eq_of_cover 6 _ (fun t _ => flushed_fused V c t) cover_fused

end Cert.Unpool.Kernel

end
-- ==== Proof.KernelValue.lean ====
/-
  The kernel program's result array is the specification function of the seven arguments.

  The second call's result is the fused projection of the arrays it reads (its write-backs cover the array). Of those,
  the scalar channels are what the first call left: x_coarse · W_sym plus the bias row, which the host made from b_sym by
  a reshape; the interpolation matrix and the fine features are arguments, untouched since the launch; the two weight
  blocks are the host's slices of W_fuse, rows 0…63 and rows 64…319; the last bias row is b_fuse reshaped. Reading the
  slices and the reshapes at an index turns the fused projection of these into the specification's formula.
-/
import proofs.«180352_g84232898609311_cont_9to1c4b_835_14_alg».proof.Proof.KernelRun
import proofs.«180352_g84232898609311_cont_9to1c4b_835_14_alg».proof.Proof.ScalarRegion
import proofs.«180352_g84232898609311_cont_9to1c4b_835_14_alg».proof.Proof.FusedRegion
import proofs.«180352_g84232898609311_cont_9to1c4b_835_14_alg».proof.Proof.LibRowBias
import Idealize.ShloMosaic.Lib.StableHlo.Run
import Idealize.ShloMosaic.Lib.Pipeline.Value

set_option maxRecDepth 16384

noncomputable section

open scoped BigOperators

namespace Cert.Unpool.Kernel

open Idealize.ShloMosaic Idealize.ShloMosaic.TcCoe Idealize.ShloMosaic.ValueIdx Idealize.SL.Sem
open Cert.KernelIdeal Cert.KernelIdeal.Gen

/-! ## The slices and reshapes, read at an index -/

/-- Rows 0…63 of a 320-row matrix, at (k, q). -/
theorem slice_top (wf : Mat 320 256) (h : (⟨2, ![320, 256]⟩ : Shape).Slices ![0, 0] ⟨2, ![64, 256]⟩) (k : Fin 64) (q : Fin 256) :
    extractStridedSlice ⟨2, ![64, 256]⟩ ![0, 0] wf h (ix2 k q) = wf (ix2 (top k) q) :=
  extractStridedSlice_apply ![0, 0] wf h (ix2 k q) (ix2 (top k) q) fun a => match a with
    | ⟨0, _⟩ => by show k.val = 0 + k.val; omega
    | ⟨1, _⟩ => by show q.val = 0 + q.val; omega

/-- Rows 64…319 of a 320-row matrix, at (k, q). -/
theorem slice_bot (wf : Mat 320 256) (h : (⟨2, ![320, 256]⟩ : Shape).Slices ![64, 0] ⟨2, ![256, 256]⟩) (k : Fin 256) (q : Fin 256) :
    extractStridedSlice ⟨2, ![256, 256]⟩ ![64, 0] wf h (ix2 k q) = wf (ix2 (bot k) q) :=
  extractStridedSlice_apply ![64, 0] wf h (ix2 k q) (ix2 (bot k) q) fun a => match a with
    | ⟨0, _⟩ => by show 64 + k.val = 64 + k.val; rfl
    | ⟨1, _⟩ => by show q.val = 0 + q.val; omega

/-- The fused projection of the scalar channels, with the weight blocks sliced from one matrix and the bias rows
    reshaped from vectors, is the specification function. -/
theorem fused_scalar_eq (xc : Mat 4096 256) (xf : Mat 16384 256) (s : Mat 16384 4096) (ws : Mat 256 64) (bs : Vc 64)
    (wf : Mat 320 256) (bf : Vc 256)
    (hb : (⟨1, ![64]⟩ : Shape).ShapeCasts ⟨2, ![1, 64]⟩) (hb' : (⟨1, ![256]⟩ : Shape).ShapeCasts ⟨2, ![1, 256]⟩)
    (h1 : (⟨2, ![320, 256]⟩ : Shape).Slices ![0, 0] ⟨2, ![64, 256]⟩)
    (h2 : (⟨2, ![320, 256]⟩ : Shape).Slices ![64, 0] ⟨2, ![256, 256]⟩) :
    fusedOf (scalarOf xc ws (shapeCast ⟨2, ![1, 64]⟩ bs hb)) s xf (extractStridedSlice ⟨2, ![64, 256]⟩ ![0, 0] wf h1)
        (extractStridedSlice ⟨2, ![256, 256]⟩ ![64, 0] wf h2) (shapeCast ⟨2, ![1, 256]⟩ bf hb')
      = G xc xf s ws bs wf bf := by
  funext i
  obtain ⟨p, q, rfl⟩ : ∃ (p : Fin 16384) (q : Fin 256), i = ix2 p q := ⟨i 0, i 1, eq_ix2 i⟩
  rw [G_apply]
  show ((∑ k : Fin 64, (∑ j : Fin 4096, s (ix2 p j) * ((∑ i' : Fin 256, xc (ix2 j i') * ws (ix2 i' k)) + shapeCast ⟨2, ![1, 64]⟩ bs hb (ix2 (0 : Fin 1) k)))
        * extractStridedSlice ⟨2, ![64, 256]⟩ ![0, 0] wf h1 (ix2 k q))
      + ∑ k : Fin 256, xf (ix2 p k) * extractStridedSlice ⟨2, ![256, 256]⟩ ![64, 0] wf h2 (ix2 k q))
      + shapeCast ⟨2, ![1, 256]⟩ bf hb' (ix2 (0 : Fin 1) q) = _
  simp only [slice_top, slice_bot, Cert.RowBias.ofVec_apply]
  rfl

/-! ## What each call finds in the arrays it reads -/

variable (m : (ℓ : Loc nD τ sig) → Buf (Elt Ideal) ℓ) (ρ : Dev nD → PrngReg)

/-- The first call's bias row is b_sym reshaped. -/
theorem entry_v2 (c : Dev nD) :
    V1 m ρ c main_v2 = shapeCast S1x64 (m ((c : Thread nD τ).loc main_arg4)) shapeCasts_S64_S1x64 := by
  show StableHlo.after hostOps0 (W0 m ρ c) (Proc.devRef .tc main_v2) = _
  after_results
  rfl

theorem entry_arg0 (c : Dev nD) : V1 m ρ c main_arg0 = m ((c : Thread nD τ).loc main_arg0) := by
  show StableHlo.after hostOps0 (W0 m ρ c) (Proc.devRef .tc main_arg0) = _
  after_results

theorem entry_arg3 (c : Dev nD) : V1 m ρ c main_arg3 = m ((c : Thread nD τ).loc main_arg3) := by
  show StableHlo.after hostOps0 (W0 m ρ c) (Proc.devRef .tc main_arg3) = _
  after_results

/-- The second call finds the scalar channels the first call left. -/
theorem entry_v4 (c : Dev nD) :
    V2 m ρ c main_v4 = scalarOf (m ((c : Thread nD τ).loc main_arg0)) (m ((c : Thread nD τ).loc main_arg3))
      (shapeCast S1x64 (m ((c : Thread nD τ).loc main_arg4)) shapeCasts_S64_S1x64) := by
  refine ((W2_arr m ρ c 3).trans (scalar_final (V1 m ρ) c)).trans ?_
  rw [entry_arg0, entry_arg3, entry_v2]

theorem entry_arg2 (c : Dev nD) : V2 m ρ c main_arg2 = m ((c : Thread nD τ).loc main_arg2) := by
  refine (W2_of_ne m ρ c main_arg2 (by decide)).trans ?_
  show StableHlo.after hostOps0 (W0 m ρ c) (Proc.devRef .tc main_arg2) = _
  after_results

theorem entry_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results

/-- The first weight block: rows 0…63 of W_fuse. -/
theorem entry_v0 (c : Dev nD) :
    V2 m ρ c main_v0 = extractStridedSlice S64x256 ![0, 0] (m ((c : Thread nD τ).loc main_arg5)) slices_S320x256_S64x256_0_0 := by
  refine (W2_of_ne m ρ c main_v0 (by decide)).trans ?_
  show StableHlo.after hostOps0 (W0 m ρ c) (Proc.devRef .tc main_v0) = _
  after_results

/-- The second weight block: rows 64…319 of W_fuse. -/
theorem entry_v1 (c : Dev nD) :
    V2 m ρ c main_v1 = extractStridedSlice S256x256 ![64, 0] (m ((c : Thread nD τ).loc main_arg5)) slices_S320x256_S256x256_64_0 := by
  refine (W2_of_ne m ρ c main_v1 (by decide)).trans ?_
  show StableHlo.after hostOps0 (W0 m ρ c) (Proc.devRef .tc main_v1) = _
  after_results

/-- The second call's bias row is b_fuse reshaped. -/
theorem entry_v3 (c : Dev nD) :
    V2 m ρ c main_v3 = shapeCast S1x256 (m ((c : Thread nD τ).loc main_arg6)) shapeCasts_S256_S1x256 := by
  refine (W2_of_ne m ρ c main_v3 (by decide)).trans ?_
  show StableHlo.after hostOps0 (W0 m ρ c) (Proc.devRef .tc main_v3) = _
  after_results
  rfl

/-! ## The result -/

/-- The result buffer at the last boundary is the specification function of the launch contents of the arguments. -/
theorem result_eq (c : Dev nD) :
    W3 m ρ c (Proc.devRef .tc main_v5)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W3_arr m ρ c 6).trans (fused_final (V2 m ρ) c)).trans ?_
  rw [entry_v4, entry_arg2, entry_arg1, entry_v0, entry_v1, entry_v3]
  exact fused_scalar_eq _ _ _ _ _ _ _ _ _ _ _

/-- Every weakly fair execution of the kernel program ends with the result buffer at the specification function of the
    arguments, and the arguments as launched. -/
theorem run : θ_run defs (onTc (τ := τ) (main (F := Ideal))) ⟨m, fun _ => 0, ρ⟩ (fun r => ∀ c : Dev nD,
      r.2.mem ((c.tc : Thread nD τ).loc main_v5)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.Unpool.Run.run_result m ρ)

end Cert.Unpool.Kernel

end
-- ==== Proof.RefValue.lean ====
/-
  The reference program's result is the specification function.

  The reference computes, one operation at a time, x_scalar = x_coarse · W_sym + b_sym, x_interp = S · x_scalar, the
  two blocks x_interp and x_fine laid side by side, and that matrix times W_fuse plus b_fuse. Read at row p and column q,
  the last product is a sum over the 320 joined columns; the first 64 of them read x_interp and the other 256 read
  x_fine, so the sum is the specification's two sums.
-/
import proofs.«180352_g84232898609311_cont_9to1c4b_835_14_alg».proof.Proof.Gen.ReferenceIdeal.Read
import proofs.«180352_g84232898609311_cont_9to1c4b_835_14_alg».proof.Proof.Spec

noncomputable section

open scoped BigOperators

namespace Cert.Unpool.Ref

open Idealize.ShloMosaic Idealize.ShloMosaic.ValueIdx Cert.ReferenceIdeal Cert.ReferenceIdeal.Read

/-! ## The index functions of the generated reading, at coordinates -/

theorem lidx0 (j : Fin 4096) (k : Fin 64) (i : Fin 256) : lidx_main_v0 (ix2 j k) i = ix2 j i :=
  funext fun a => Fin.ext (by match a with | ⟨0, _⟩ => rfl | ⟨1, _⟩ => rfl)

theorem ridx0 (j : Fin 4096) (k : Fin 64) (i : Fin 256) : ridx_main_v0 (ix2 j k) i = ix2 i k :=
  funext fun a => Fin.ext (by match a with | ⟨0, _⟩ => rfl | ⟨1, _⟩ => rfl)

theorem idx12 (j : Fin 4096) (k : Fin 64) : idx_main_v1 (idx_main_v2 (ix2 j k)) = ix1 k :=
  funext fun a => Fin.ext (by match a with | ⟨0, _⟩ => rfl)

/-- The scalar channels: the first product plus its bias row, at (j, k). -/
theorem scalar_eq (x0 : FVec Ideal S4096x256 .f32) (x3 : FVec Ideal S256x64 .f32) (x4 : FVec Ideal S64 .f32)
    (j : Fin 4096) (k : Fin 64) :
    val_main_v3 (F := Ideal) x0 x3 x4 (ix2 j k) = Cert.Unpool.scalar x0 x3 x4 j k := by
  rw [val_main_v3_apply, val_main_v0_apply, val_main_v2_apply, val_main_v1_apply, idx12]
  unfold Cert.Unpool.scalar
  simp only [lidx0, ridx0]
  rfl

theorem lidx4 (p : Fin 16384) (k : Fin 64) (j : Fin 4096) : lidx_main_v4 (ix2 p k) j = ix2 p j :=
  funext fun a => Fin.ext (by match a with | ⟨0, _⟩ => rfl | ⟨1, _⟩ => rfl)

theorem ridx4 (p : Fin 16384) (k : Fin 64) (j : Fin 4096) : ridx_main_v4 (ix2 p k) j = ix2 j k :=
  funext fun a => Fin.ext (by match a with | ⟨0, _⟩ => rfl | ⟨1, _⟩ => rfl)

/-- The scalar channels carried to the fine mesh: the second product, at (p, k). -/
theorem lifted_eq (x0 : FVec Ideal S4096x256 .f32) (x2 : FVec Ideal S16384x4096 .f32) (x3 : FVec Ideal S256x64 .f32)
    (x4 : FVec Ideal S64 .f32) (p : Fin 16384) (k : Fin 64) :
    val_main_v4 (F := Ideal) x0 x2 x3 x4 (ix2 p k) = Cert.Unpool.lifted x2 x0 x3 x4 p k := by
  rw [val_main_v4_apply]
  unfold Cert.Unpool.lifted
  refine Finset.sum_congr rfl fun j _ => ?_
  rw [lidx4, ridx4, scalar_eq]

/-! ## The two blocks laid side by side -/

/-- A joined column below 64 reads the interpolated scalar channels. -/
theorem cat_top (x0 : FVec Ideal S4096x256 .f32) (x1 : FVec Ideal S16384x256 .f32) (x2 : FVec Ideal S16384x4096 .f32)
    (x3 : FVec Ideal S256x64 .f32) (x4 : FVec Ideal S64 .f32) (p : Fin 16384) (k : Fin 64) :
    val_main_v5 (F := Ideal) x0 x1 x2 x3 x4 (ix2 p (Cert.Unpool.top k)) = val_main_v4 (F := Ideal) x0 x2 x3 x4 (ix2 p k) := by
  unfold val_main_v5
  exact concatenate_pair_apply_left (t := S16384x320) (s₁ := S16384x64) (s₂ := S16384x256) 1 _ _ _
    (ix2 p (Cert.Unpool.top k)) rfl (ix2 p k)
    (fun b => by match b with | ⟨0, _⟩ => rfl | ⟨1, _⟩ => rfl)

/-- A joined column 64 + k reads the fine features at column k. -/
theorem cat_bot (x0 : FVec Ideal S4096x256 .f32) (x1 : FVec Ideal S16384x256 .f32) (x2 : FVec Ideal S16384x4096 .f32)
    (x3 : FVec Ideal S256x64 .f32) (x4 : FVec Ideal S64 .f32) (p : Fin 16384) (k : Fin 256) :
    val_main_v5 (F := Ideal) x0 x1 x2 x3 x4 (ix2 p (Cert.Unpool.bot k)) = x1 (ix2 p k) := by
  unfold val_main_v5
  exact concatenate_pair_apply_right (t := S16384x320) (s₁ := S16384x64) (s₂ := S16384x256) 1 _ _ _
    (ix2 p (Cert.Unpool.bot k)) rfl rfl (ix2 p k)
    (fun b hb => by
      match b with
      | ⟨0, _⟩ => rfl
      | ⟨1, _⟩ => exact absurd rfl hb)
    (by show k.val + 64 = 64 + k.val; omega)

/-! ## The reference's result -/

theorem lidx6 (p : Fin 16384) (q : Fin 256) (k : Fin 320) : lidx_main_v6 (ix2 p q) k = ix2 p k :=
  funext fun a => Fin.ext (by match a with | ⟨0, _⟩ => rfl | ⟨1, _⟩ => rfl)

theorem ridx6 (p : Fin 16384) (q : Fin 256) (k : Fin 320) : ridx_main_v6 (ix2 p q) k = ix2 k q :=
  funext fun a => Fin.ext (by match a with | ⟨0, _⟩ => rfl | ⟨1, _⟩ => rfl)

theorem idx78 (p : Fin 16384) (q : Fin 256) : idx_main_v7 (idx_main_v8 (ix2 p q)) = ix1 q :=
  funext fun a => Fin.ext (by match a with | ⟨0, _⟩ => rfl)

/-- The reference program's result is the specification function of its seven arguments. -/
theorem ref_eq (x0 : FVec Ideal Cert.ReferenceIdeal.S4096x256 .f32) (x1 : FVec Ideal Cert.ReferenceIdeal.S16384x256 .f32)
    (x2 : FVec Ideal Cert.ReferenceIdeal.S16384x4096 .f32) (x3 : FVec Ideal Cert.ReferenceIdeal.S256x64 .f32)
    (x4 : FVec Ideal Cert.ReferenceIdeal.S64 .f32) (x5 : FVec Ideal Cert.ReferenceIdeal.S320x256 .f32)
    (x6 : FVec Ideal Cert.ReferenceIdeal.S256 .f32) :
    Cert.ReferenceIdeal.Read.val_main_v9 (F := Ideal) x0 x1 x2 x3 x4 x5 x6 = Cert.Unpool.G x0 x1 x2 x3 x4 x5 x6 := by
  funext i
  obtain ⟨p, q, rfl⟩ : ∃ (p : Fin 16384) (q : Fin 256), i = ix2 p q := ⟨i 0, i 1, eq_ix2 i⟩
  rw [Cert.Unpool.G_apply, val_main_v9_apply, val_main_v6_apply, val_main_v8_apply, val_main_v7_apply, idx78,
    Cert.Unpool.sum_split]
  unfold Cert.Unpool.out
  simp only [lidx6, ridx6, cat_top, cat_bot, lifted_eq]
  rfl

end Cert.Unpool.Ref

end
-- ==== Proof.lean ====
/-
  The fused unpooling layer: the kernel program and its reference compute the same array on the extended reals.

  With x_scalar = x_coarse · W_sym + b_sym, both programs end with

    out[p,q] = (sum over k < 64 of (S · x_scalar)[p,k] · W_fuse[k,q]) + (sum over k < 256 of x_fine[p,k] · W_fuse[64+k,q]) + b_fuse[q].

  The kernel program computes x_scalar in a first call and, in a second call over 32 tiles of 512 fine rows, the two
  products against the two row blocks of W_fuse, which it adds. The reference lays S · x_scalar and x_fine side by side
  and takes one product against all 320 rows of W_fuse: a sum over 320 terms, which is the sum over the first 64 plus
  the sum over the last 256. Only the commutativity and associativity of addition are used, so the finiteness of the
  inputs is never opened.

  The frames of the two kernel programs are the generated ones; the reference's frame is its generated run with the
  result dropped. The idealized kernel is the printed kernel read on the extended reals with no rewrite, so there is
  nothing to preserve. For the value claim each side is shown to end at the one function `Cert.Unpool.G` of the
  arguments: the kernel program through its two calls' write-backs (`Cert.Unpool.Kernel.run`), the reference through
  its operations read at an index (`Cert.Unpool.Ref.ref_eq`).
-/
import proofs.«180352_g84232898609311_cont_9to1c4b_835_14_alg».proof.Defs
import proofs.«180352_g84232898609311_cont_9to1c4b_835_14_alg».proof.Proof.Gen.Kernel
import proofs.«180352_g84232898609311_cont_9to1c4b_835_14_alg».proof.Proof.Gen.Kernel.Skeleton
import proofs.«180352_g84232898609311_cont_9to1c4b_835_14_alg».proof.Proof.Gen.Kernel.Launch
import proofs.«180352_g84232898609311_cont_9to1c4b_835_14_alg».proof.Proof.Gen.Kernel.Points
import proofs.«180352_g84232898609311_cont_9to1c4b_835_14_alg».proof.Proof.Gen.Kernel.Frame
import proofs.«180352_g84232898609311_cont_9to1c4b_835_14_alg».proof.Proof.Gen.KernelIdeal
import proofs.«180352_g84232898609311_cont_9to1c4b_835_14_alg».proof.Proof.Gen.KernelIdeal.Skeleton
import proofs.«180352_g84232898609311_cont_9to1c4b_835_14_alg».proof.Proof.Gen.KernelIdeal.Launch
import proofs.«180352_g84232898609311_cont_9to1c4b_835_14_alg».proof.Proof.Gen.KernelIdeal.Points
import proofs.«180352_g84232898609311_cont_9to1c4b_835_14_alg».proof.Proof.Gen.KernelIdeal.Frame
import proofs.«180352_g84232898609311_cont_9to1c4b_835_14_alg».proof.Proof.Gen.ReferenceIdeal
import proofs.«180352_g84232898609311_cont_9to1c4b_835_14_alg».proof.Proof.Gen.Pre_finite_inputs
import proofs.«180352_g84232898609311_cont_9to1c4b_835_14_alg».proof.Proof.Gen.ReferenceIdeal.Run
import proofs.«180352_g84232898609311_cont_9to1c4b_835_14_alg».proof.Proof.Gen.ReferenceIdeal.Read
import proofs.«180352_g84232898609311_cont_9to1c4b_835_14_alg».proof.Proof.KernelValue
import proofs.«180352_g84232898609311_cont_9to1c4b_835_14_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with every argument as launched. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result at the one function of the
    arguments: the kernel program's two calls leave it there, and the reference's ten operations compose to it. -/
theorem algebraic : Cert.algebraic_KernelIdeal_ReferenceIdeal := by
  intro m ρ m' ρ' _ hagree
  refine ⟨_, Cert.Unpool.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Unpool.Ref.ref_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
